-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S600000x2 : Shape := ⟨2, ![600000, 2]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S600000x128 .f32) (main_arg2 : IVec S600000x2 32) (main_arg3 : FVec F S256x256 .f32) (main_arg4 : FVec F S256 .f32) (main_arg5 : FVec F S256x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S50000x128 : Shape := ⟨2, ![50000, 128]⟩
abbrev S600000x128 : Shape := ⟨2, ![600000, 128]⟩
abbrev S600000x2 : Shape := ⟨2, ![600000, 2]⟩
abbrev S256x256 : Shape := ⟨2, ![256, 256]⟩
abbrev S256 : Shape := ⟨1, ![256]⟩
abbrev S256x128 : Shape := ⟨2, ![256, 128]⟩
abbrev S128 : Shape := ⟨1, ![128]⟩
abbrev S600000x1 : Shape := ⟨2, ![600000, 1]⟩
abbrev S600000 : Shape := ⟨1, ![600000]⟩
abbrev S_ : Shape := ⟨0, ![]⟩
abbrev S1x256 : Shape := ⟨2, ![1, 256]⟩
abbrev S1x128 : Shape := ⟨2, ![1, 128]⟩
abbrev S5000x128 : Shape := ⟨2, ![5000, 128]⟩
abbrev S5000x256 : Shape := ⟨2, ![5000, 256]⟩

abbrev nBuf : Space → Nat
  | .hbm => 23
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000x2, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S600000x1, .i32⟩
  | .hbm, ⟨8, _⟩ => ⟨S600000, .i32⟩
  | .hbm, ⟨9, _⟩ => ⟨S600000x1, .i32⟩
  | .hbm, ⟨10, _⟩ => ⟨S600000, .i32⟩
  | .hbm, ⟨11, _⟩ => ⟨S_, .f32⟩
  | .hbm, ⟨12, _⟩ => ⟨S50000x128, .f32⟩
  | .hbm, ⟨13, _⟩ => ⟨S600000x1, .i32⟩
  | .hbm, ⟨14, _⟩ => ⟨S50000x128, .f32⟩
  | .hbm, ⟨15, _⟩ => ⟨S_, .f32⟩
  | .hbm, ⟨16, _⟩ => ⟨S50000x128, .f32⟩
  | .hbm, ⟨17, _⟩ => ⟨S600000x1, .i32⟩
  | .hbm, ⟨18, _⟩ => ⟨S50000x128, .f32⟩
  | .hbm, ⟨19, _⟩ => ⟨S50000x128, .f32⟩
  | .hbm, ⟨20, _⟩ => ⟨S1x256, .f32⟩
  | .hbm, ⟨21, _⟩ => ⟨S1x128, .f32⟩
  | .hbm, ⟨22, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S600000x2_S600000x1_0_0 : S600000x2.Slices ![0, 0] S600000x1
  shapeCasts_S600000x1_S600000 : S600000x1.ShapeCasts S600000
  slices_S600000x2_S600000x1_0_1 : S600000x2.Slices ![0, 1] S600000x1
  bcast_S_S50000x128 : S_.BroadcastsInDim S50000x128 (![] : Fin 0 → Fin S50000x128.rank)
  bcast_S600000_S600000x1_0 : S600000.BroadcastsInDim S600000x1 (![0] : Fin 1 → Fin S600000x1.rank)
  shapeCasts_S256_S1x256 : S256.ShapeCasts S1x256
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000x128_S600000x1_S600000x128_1_0_0_1_wf : ScatterDims.WF S50000x128 S600000x1 S600000x128 [1] [0] [0] 1
  dot_S5000x256_S256x256_S5000x256_1_0_0_1_n_n_wf : DotDims.WF S5000x256 S256x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S600000x2 : Shape := ⟨2, ![600000, 2]⟩
abbrev S256x256 : Shape := ⟨2, ![256, 256]⟩
abbrev S256 : Shape := ⟨1, ![256]⟩
abbrev S256x128 : Shape := ⟨2, ![256, 128]⟩
abbrev S128 : Shape := ⟨1, ![128]⟩
abbrev S600000x1 : Shape := ⟨2, ![600000, 1]⟩
abbrev S600000 : Shape := ⟨1, ![600000]⟩
abbrev S_ : Shape := ⟨0, ![]⟩
abbrev S50000x256 : Shape := ⟨2, ![50000, 256]⟩
abbrev S1x256 : Shape := ⟨2, ![1, 256]⟩
abbrev S1x128 : Shape := ⟨2, ![1, 128]⟩

abbrev nBuf : Space → Nat
  | .hbm => 32
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000x2, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S600000x1, .i32⟩
  | .hbm, ⟨8, _⟩ => ⟨S600000, .i32⟩
  | .hbm, ⟨9, _⟩ => ⟨S_, .f32⟩
  | .hbm, ⟨10, _⟩ => ⟨S50000x128, .f32⟩
  | .hbm, ⟨11, _⟩ => ⟨S600000x1, .i32⟩
  | .hbm, ⟨12, _⟩ => ⟨S50000x128, .f32⟩
  | .hbm, ⟨13, _⟩ => ⟨S600000x1, .i32⟩
  | .hbm, ⟨14, _⟩ => ⟨S600000, .i32⟩
  | .hbm, ⟨15, _⟩ => ⟨S_, .f32⟩
  | .hbm, ⟨16, _⟩ => ⟨S50000x128, .f32⟩
  | .hbm, ⟨17, _⟩ => ⟨S600000x1, .i32⟩
  | .hbm, ⟨18, _⟩ => ⟨S50000x128, .f32⟩
  | .hbm, ⟨19, _⟩ => ⟨S50000x128, .f32⟩
  | .hbm, ⟨20, _⟩ => ⟨S50000x256, .f32⟩
  | .hbm, ⟨21, _⟩ => ⟨S50000x256, .f32⟩
  | .hbm, ⟨22, _⟩ => ⟨S1x256, .f32⟩
  | .hbm, ⟨23, _⟩ => ⟨S50000x256, .f32⟩
  | .hbm, ⟨24, _⟩ => ⟨S50000x256, .f32⟩
  | .hbm, ⟨25, _⟩ => ⟨S_, .f32⟩
  | .hbm, ⟨26, _⟩ => ⟨S50000x256, .f32⟩
  | .hbm, ⟨27, _⟩ => ⟨S50000x256, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  slices_S600000x2_S600000x1_0_0 : S600000x2.Slices ![0, 0] S600000x1
  shapeCasts_S600000x1_S600000 : S600000x1.ShapeCasts S600000
  bcast_S_S50000x128 : S_.BroadcastsInDim S50000x128 (![] : Fin 0 → Fin S50000x128.rank)
  bcast_S600000_S600000x1_0 : S600000.BroadcastsInDim S600000x1 (![0] : Fin 1 → Fin S600000x1.rank)
  slices_S600000x2_S600000x1_0_1 : S600000x2.Slices ![0, 1] S600000x1
  concatenates_S50000x128_S50000x128_S50000x256_d1 : Shape.Concatenates [S50000x128, S50000x128] S50000x256 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000x128_S600000x1_S600000x128_1_0_0_1_wf : ScatterDims.WF S50000x128 S600000x1 S600000x128 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Net.lean ====
/-
  One node's update, as a function of that node's row alone.

  A node carries a row of 256 numbers: its own 128 features followed by the 128 features aggregated from its edges.
  The update is a two-layer perceptron with a rectifier between the layers,

      out(q) = (∑ k, max ((∑ l, x(l) · W1(l, k)) + b1(k)) 0 · W2(k, q)) + b2(q),

  so the result's row `r` depends on row `r` of the two joined arrays and on nothing else of them. That is what lets a
  block of 5000 consecutive rows be computed from the same 5000 rows of the inputs, and what the whole array's value
  `nodeUpdate` records: the row function applied at every row. On the extended reals the two sums are sums in a
  commutative monoid, so neither their order nor any grouping matters, and a change of float format is the identity.
-/
import Idealize.ShloMosaic.PureOps.Ideal.Laws
import Idealize.ShloMosaic.Lib.ValueIdx
import Idealize.ShloMosaic.Lib.Pipeline.Value

noncomputable section

namespace Cert.NodeMlp

open Idealize.ShloMosaic Idealize.ShloMosaic.ValueIdx

/-- A row of 256 numbers: a row of 128 followed by another row of 128. -/
def joinRow (a b : Fin 128 → EReal) (l : Fin 256) : EReal :=
  if h : l.val < 128 then a ⟨l.val, h⟩ else b ⟨l.val - 128, by have := l.isLt; omega⟩

/-- The perceptron of one row `x`: entry `q` of `max (x · W1 + b1) 0 · W2 + b2`. -/
def rowMlp (x : Fin 256 → EReal) (W1 : (⟨2, ![256, 256]⟩ : Shape).Idx → EReal) (b1 : Fin 256 → EReal)
    (W2 : (⟨2, ![256, 128]⟩ : Shape).Idx → EReal) (b2 : Fin 128 → EReal) (q : Fin 128) : EReal :=
  (∑ k : Fin 256, max ((∑ l : Fin 256, x l * W1 (ix2 l k)) + b1 k) 0 * W2 (ix2 k q)) + b2 q

/-- The whole result: at row `r`, column `q`, the perceptron of row `r` of `[xn | agg]`. -/
def nodeUpdate (xn agg : (⟨2, ![50000, 128]⟩ : Shape).Idx → EReal) (W1 : (⟨2, ![256, 256]⟩ : Shape).Idx → EReal)
    (b1 : (⟨1, ![256]⟩ : Shape).Idx → EReal) (W2 : (⟨2, ![256, 128]⟩ : Shape).Idx → EReal)
    (b2 : (⟨1, ![128]⟩ : Shape).Idx → EReal) : (⟨2, ![50000, 128]⟩ : Shape).Idx → EReal :=
  fun i => rowMlp (joinRow (fun j => xn (ix2 (i 0) j)) (fun j => agg (ix2 (i 0) j))) W1 (fun k => b1 (ix1 k)) W2
    (fun j => b2 (ix1 j)) (i 1)

/-- Two arrays of `M` rows of 128 joined along the columns, read at row `p`, column `l`: the joined row of their rows `p`. -/
theorem concat_rows_apply {M : ℕ}
    (h : Shape.Concatenates [(⟨2, ![M, 128]⟩ : Shape), ⟨2, ![M, 128]⟩] ⟨2, ![M, 256]⟩ 1)
    (a b : (⟨2, ![M, 128]⟩ : Shape).Idx → EReal) (p : Fin M) (l : Fin 256) :
    concatenate ⟨2, ![M, 256]⟩ 1 [⟨⟨2, ![M, 128]⟩, a⟩, ⟨⟨2, ![M, 128]⟩, b⟩] h (ix2 p l)
      = joinRow (fun j => a (ix2 p j)) (fun j => b (ix2 p j)) l := by
  unfold joinRow
  split
  · next hl =>
    exact concatenate_pair_apply_left 1 a b h (ix2 p l) rfl (ix2 p ⟨l.val, hl⟩)
      (fun c => match c with | ⟨0, _⟩ => rfl | ⟨1, _⟩ => rfl)
  · next hl =>
    have hl' : l.val - 128 < 128 := by have := l.isLt; omega
    exact concatenate_pair_apply_right 1 a b h (ix2 p l) rfl rfl (ix2 p ⟨l.val - 128, hl'⟩)
      (fun c hc => match c, hc with | ⟨0, _⟩, _ => rfl | ⟨1, _⟩, hc => absurd rfl hc)
      (by show (l.val - 128) + 128 = l.val; omega)

end Cert.NodeMlp

end
-- ==== Proof.KernelBlock.lean ====
/-
  What the kernel's body computes for one block of 5000 rows, entry by entry.

  The body joins the block of node features and the block of aggregated edge features into rows of 256, multiplies by
  `W1` into a zero accumulator, adds the bias row, takes the maximum with zero, multiplies by `W2` into a zero
  accumulator and adds the second bias row. On the extended reals the changes of float format are the identity and
  a product into a zero accumulator is the plain sum over the contracted index, so entry `(p, q)` of the stored
  block is the perceptron of row `p` of the two input blocks.
-/
import proofs.«154741_j11373073400276_1_alg».proof.Proof.Gen.KernelIdeal.Skeleton
import proofs.«154741_j11373073400276_1_alg».proof.Proof.LibDot
import proofs.«154741_j11373073400276_1_alg».proof.Proof.Net
import Idealize.ShloMosaic.Lib.ValueLayout

noncomputable section

namespace Cert.KernelIdeal.Block

open Cert.KernelIdeal Cert.KernelIdeal.Gen Idealize.ShloMosaic Idealize.ShloMosaic.ValueIdx Cert.NodeMlp

/-- A bias stored as one row of `n` numbers and repeated down `M` rows reads, at row `p` and column `k`, entry `k` of that row. -/
theorem bias_rows_apply {M n : ℕ} (hn : n ≠ 1) (b : (⟨2, ![1, n]⟩ : Shape).Idx → EReal)
    (hc : (⟨2, ![1, n]⟩ : Shape).ShapeCasts ⟨2, ![1, n]⟩) (hb : (⟨2, ![1, n]⟩ : Shape).Broadcasts ⟨2, ![M, n]⟩)
    (p : Fin M) (k : Fin n) :
    broadcastTo ⟨2, ![M, n]⟩ (shapeCast ⟨2, ![1, n]⟩ b hc) hb (ix2 p k) = b (ix2 0 k) := by
  rw [shapeCast_self]
  exact broadcastTo_apply b hb (ix2 p k) (ix2 0 k) (fun a => match a with
    | ⟨0, _⟩ => by show (0 : ℕ) = if (1 : ℕ) = 1 then 0 else _; rw [if_pos rfl]
    | ⟨1, _⟩ => by show k.val = if n = 1 then 0 else k.val; rw [if_neg hn])

/-- Entry `(p, q)` of the block the body stores: the perceptron of row `p` of the joined input blocks. -/
theorem pay_apply (x0 x1 : Vec Ideal S5000x128 .f32) (w1 : Vec Ideal S256x256 .f32) (b1 : Vec Ideal S1x256 .f32)
    (w2 : Vec Ideal S256x128 .f32) (b2 : Vec Ideal S1x128 .f32) (p : Fin 5000) (q : Fin 128) :
    k0_pay1 (F := Ideal) x0 x1 w1 b1 w2 b2 (ix2 p q)
      = rowMlp (joinRow (fun j => x0 (ix2 p j)) (fun j => x1 (ix2 p j))) w1 (fun k => b1 (ix2 0 k)) w2
          (fun j => b2 (ix2 0 j)) q := by
  unfold k0_pay1 rowMlp
  dsimp only
  rw [addf_apply]
  refine congrArg₂ (· + ·) ?_ ?_
  · show FloatOps.matmul (DotDims.plain 5000 256 128) none _ _ (constant ⟨2, ![5000, 128]⟩ .f32 0x00000000#32) (ix2 p q) = _
    rw [Cert.GNN.matmul_plain_zero_apply]
    refine Finset.sum_congr rfl fun k _ => ?_
    rw [truncf_apply, truncf_apply, maximumf_apply, broadcast_apply, addf_apply]
    rw [Ideal.ofBits_def, Ideal.ofBits_zero_f32]
    refine congrArg (fun z => max z 0 * w2 (ix2 k q)) ?_
    refine congrArg₂ (· + ·) ?_ (bias_rows_apply (by decide) b1 _ _ p k)
    show FloatOps.matmul (DotDims.plain 5000 256 256) none _ _ (constant ⟨2, ![5000, 256]⟩ .f32 0x00000000#32) (ix2 p k) = _
    rw [Cert.GNN.matmul_plain_zero_apply]
    refine Finset.sum_congr rfl fun l _ => ?_
    rw [truncf_apply, truncf_apply, shapeCast_self]
    exact congrArg (· * w1 (ix2 l k)) (concat_rows_apply _ x0 x1 p l)
  · exact bias_rows_apply (by decide) b2 _ _ p q

end Cert.KernelIdeal.Block

end
-- ==== Proof.KernelRows.lean ====
/-
  The blocks the region's ten points read, as rows of the arrays.

  Before the region the host operations write three of the arrays the region's windows stage: the aggregated edge
  features (the two scatter-adds of the edge features by the two endpoint columns, added), and each bias as one row.
  Point `t` of the region reads rows `5000 t … 5000 t + 4999` of the node features and of the aggregate, and the whole
  of the two weight matrices and of the two bias rows. So the perceptron of row `p` of the blocks at point `t` is the
  perceptron of row `5000 t + p` of the whole arrays: the result `nodeUpdate` at that row.
-/
import proofs.«154741_j11373073400276_1_alg».proof.Proof.Gen.KernelIdeal.Value
import proofs.«154741_j11373073400276_1_alg».proof.Proof.KernelBlock
import proofs.«154741_j11373073400276_1_alg».proof.Proof.Net
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx Cert.NodeMlp

variable (m : (ℓ : Loc nD τ sig) → Buf (Elt Ideal) ℓ) (ρ : Dev nD → PrngReg)

/-! ## The arrays the host operations write before the region -/

/-- The aggregated edge features: the edge features scatter-added by the first endpoint column into zeros, plus the
    same by the second endpoint column. -/
def agg (x1 : (⟨S600000x128, .f32⟩ : BufTy).Contents (Elt Ideal)) (x2 : (⟨S600000x2, .i32⟩ : BufTy).Contents (Elt Ideal)) :
    (⟨S50000x128, .f32⟩ : BufTy).Contents (Elt Ideal) :=
  addf
    (Host.scatterAdd scatter_S50000x128_S600000x1_S600000x128_1_0_0_1
      (broadcastInDim S50000x128 ![] bcast_S_S50000x128 (constant (F := Ideal) S_ .f32 0x00000000#32))
      (broadcastInDim S600000x1 ![0] bcast_S600000_S600000x1_0
        (shapeCast S600000 (extractStridedSlice S600000x1 ![0, 0] x2 slices_S600000x2_S600000x1_0_0) shapeCasts_S600000x1_S600000))
      x1)
    (Host.scatterAdd scatter_S50000x128_S600000x1_S600000x128_1_0_0_1
      (broadcastInDim S50000x128 ![] bcast_S_S50000x128 (constant (F := Ideal) S_ .f32 0x00000000#32))
      (broadcastInDim S600000x1 ![0] bcast_S600000_S600000x1_0
        (shapeCast S600000 (extractStridedSlice S600000x1 ![0, 1] x2 slices_S600000x2_S600000x1_0_1) shapeCasts_S600000x1_S600000))
      x1)

/-- The region finds the aggregate in the array its second window stages. -/
theorem V_agg (c : Dev nD) :
    (V m c main_v10 : S50000x128.Idx → EReal)
      = agg (m ((c : Thread nD τ).loc main_arg1)) (m ((c : Thread nD τ).loc main_arg2)) := by
  dsimp only [V, hostOps0]
  after_results
  rfl

/-- The region finds the first bias as one row of 256. -/
theorem V_bias1 (c : Dev nD) :
    (V m c main_v11 : S1x256.Idx → EReal)
      = shapeCast S1x256 (m ((c : Thread nD τ).loc main_arg4) : S256.Idx → EReal) shapeCasts_S256_S1x256 := by
  dsimp only [V, hostOps0]
  after_results
  rfl

/-- The region finds the second bias as one row of 128. -/
theorem V_bias2 (c : Dev nD) :
    (V m c main_v12 : S1x128.Idx → EReal)
      = shapeCast S1x128 (m ((c : Thread nD τ).loc main_arg6) : S128.Idx → EReal) shapeCasts_S128_S1x128 := by
  dsimp only [V, hostOps0]
  after_results
  rfl

/-- A bias row read at its entry `k` is entry `k` of the bias. -/
theorem bias1_apply (c : Dev nD) (k : Fin 256) :
    (V m c main_v11 : S1x256.Idx → EReal) (ix2 0 k) = (m ((c : Thread nD τ).loc main_arg4) : S256.Idx → EReal) (ix1 k) := by
  rw [V_bias1]
  exact shapeCast_apply _ shapeCasts_S256_S1x256 (ix2 0 k) (ix1 k)
    (by rewrite [Shape.rowMajor_val_two, Shape.rowMajor_val_one]; show k.val = 0 * 256 + k.val; omega)

theorem bias2_apply (c : Dev nD) (k : Fin 128) :
    (V m c main_v12 : S1x128.Idx → EReal) (ix2 0 k) = (m ((c : Thread nD τ).loc main_arg6) : S128.Idx → EReal) (ix1 k) := by
  rw [V_bias2]
  exact shapeCast_apply _ shapeCasts_S128_S1x128 (ix2 0 k) (ix1 k)
    (by rewrite [Shape.rowMajor_val_two, Shape.rowMajor_val_one]; show k.val = 0 * 128 + k.val; omega)

/-! ## The windows' blocks as rows of their arrays -/

/-- The index maps, decided over the ten points: the two row-blocked inputs and the output sit at block `t` of the
    rows, every other block index is zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the node-feature block at point `t` is row `5000 t + p` of the node features. -/
theorem nodes_block_apply (c : Dev nD) (t : Fin cfg0.N) (p : Fin 5000) (j : Fin 128) (r : Fin 50000)
    (hr : r.val = 5000 * t.val + p.val) :
    (iblk m c 0 t : Vec Ideal S5000x128 .f32) (ix2 p j)
      = (m ((c : Thread nD τ).loc main_arg0) : S50000x128.Idx → EReal) (ix2 r j) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * j.val = j.val; rw [e1]; omega

/-- Row `p` of the aggregate's block at point `t` is row `5000 t + p` of the aggregate. -/
theorem agg_block_apply (c : Dev nD) (t : Fin cfg0.N) (p : Fin 5000) (j : Fin 128) (r : Fin 50000)
    (hr : r.val = 5000 * t.val + p.val) :
    (iblk m c 1 t : Vec Ideal S5000x128 .f32) (ix2 p j)
      = agg (m ((c : Thread nD τ).loc main_arg1)) (m ((c : Thread nD τ).loc main_arg2)) (ix2 r j) := by
  obtain ⟨-, -, e0, e1, -⟩ := idx_facts t
  unfold iblk
  rw [View.read_apply]
  show (V m c main_v10 : S50000x128.Idx → EReal) _ = _
  rw [V_agg]
  refine congrArg _ (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * j.val = j.val; rw [e1]; omega

/-- The first weight matrix's block at any point is the whole matrix. -/
theorem w1_block (c : Dev nD) (t : Fin cfg0.N) :
    (iblk m c 2 t : Vec Ideal S256x256 .f32) = (m ((c : Thread nD τ).loc main_arg3) : S256x256.Idx → EReal) := by
  obtain ⟨-, -, -, -, e0, e1, -⟩ := idx_facts t
  funext y
  unfold iblk
  rw [View.read_apply]
  show V m c main_arg3 _ = _
  rw [V_main_arg3]
  refine congrArg _ (funext fun a => Fin.ext ?_)
  match a with
  | ⟨0, _⟩ => show win0_2.index t (0 : Fin 2) * 256 + 1 * (y 0).val = (y 0).val; rw [e0]; omega
  | ⟨1, _⟩ => show win0_2.index t (1 : Fin 2) * 256 + 1 * (y 1).val = (y 1).val; rw [e1]; omega

/-- The second weight matrix's block at any point is the whole matrix. -/
theorem w2_block (c : Dev nD) (t : Fin cfg0.N) :
    (iblk m c 4 t : Vec Ideal S256x128 .f32) = (m ((c : Thread nD τ).loc main_arg5) : S256x128.Idx → EReal) := by
  obtain ⟨-, -, -, -, -, -, -, -, e0, e1, -⟩ := idx_facts t
  funext y
  unfold iblk
  rw [View.read_apply]
  show V m c main_arg5 _ = _
  rw [V_main_arg5]
  refine congrArg _ (funext fun a => Fin.ext ?_)
  match a with
  | ⟨0, _⟩ => show win0_4.index t (0 : Fin 2) * 256 + 1 * (y 0).val = (y 0).val; rw [e0]; omega
  | ⟨1, _⟩ => show win0_4.index t (1 : Fin 2) * 128 + 1 * (y 1).val = (y 1).val; rw [e1]; omega

/-- Entry `k` of the first bias row's block at any point is entry `k` of the first bias. -/
theorem b1_block_apply (c : Dev nD) (t : Fin cfg0.N) (k : Fin 256) :
    (iblk m c 3 t : Vec Ideal S1x256 .f32) (ix2 0 k) = (m ((c : Thread nD τ).loc main_arg4) : S256.Idx → EReal) (ix1 k) := by
  obtain ⟨-, -, -, -, -, -, e0, e1, -⟩ := idx_facts t
  rw [← bias1_apply m c k]
  unfold iblk
  rw [View.read_apply]
  show (V m c main_v11 : S1x256.Idx → EReal) _ = _
  refine congrArg _ (funext fun a => Fin.ext ?_)
  match a with
  | ⟨0, _⟩ => show win0_3.index t (0 : Fin 2) * 1 + 1 * 0 = 0; rw [e0]
  | ⟨1, _⟩ => show win0_3.index t (1 : Fin 2) * 256 + 1 * k.val = k.val; rw [e1]; omega

/-- Entry `k` of the second bias row's block at any point is entry `k` of the second bias. -/
theorem b2_block_apply (c : Dev nD) (t : Fin cfg0.N) (k : Fin 128) :
    (iblk m c 5 t : Vec Ideal S1x128 .f32) (ix2 0 k) = (m ((c : Thread nD τ).loc main_arg6) : S128.Idx → EReal) (ix1 k) := by
  obtain ⟨-, -, -, -, -, -, -, -, -, -, e0, e1, -⟩ := idx_facts t
  rw [← bias2_apply m c k]
  unfold iblk
  rw [View.read_apply]
  show (V m c main_v12 : S1x128.Idx → EReal) _ = _
  refine congrArg _ (funext fun a => Fin.ext ?_)
  match a with
  | ⟨0, _⟩ => show win0_5.index t (0 : Fin 2) * 1 + 1 * 0 = 0; rw [e0]
  | ⟨1, _⟩ => show win0_5.index t (1 : Fin 2) * 128 + 1 * k.val = k.val; rw [e1]; omega

/-! ## One row of the blocks, and the result at that row -/

/-- The result array as one function of the arguments: the node update of the node features and the aggregate. -/
abbrev result (c : Dev nD) : S50000x128.Idx → EReal :=
  nodeUpdate (m ((c : Thread nD τ).loc main_arg0))
    (agg (m ((c : Thread nD τ).loc main_arg1)) (m ((c : Thread nD τ).loc main_arg2)))
    (m ((c : Thread nD τ).loc main_arg3)) (m ((c : Thread nD τ).loc main_arg4))
    (m ((c : Thread nD τ).loc main_arg5)) (m ((c : Thread nD τ).loc main_arg6))

/-- The perceptron of row `p` of the blocks at point `t` is the result at row `5000 t + p`. -/
theorem block_row (c : Dev nD) (t : Fin cfg0.N) (p : Fin 5000) (q : Fin 128) (i : S50000x128.Idx)
    (h0 : (i 0).val = 5000 * t.val + p.val) (h1 : i 1 = q) :
    rowMlp (joinRow (fun j => (iblk m c 0 t : Vec Ideal S5000x128 .f32) (ix2 p j))
        (fun j => (iblk m c 1 t : Vec Ideal S5000x128 .f32) (ix2 p j)))
      (iblk m c 2 t : Vec Ideal S256x256 .f32) (fun k => (iblk m c 3 t : Vec Ideal S1x256 .f32) (ix2 0 k))
      (iblk m c 4 t : Vec Ideal S256x128 .f32) (fun j => (iblk m c 5 t : Vec Ideal S1x128 .f32) (ix2 0 j)) q
      = result m c i := by
  have ea : (fun j => (iblk m c 0 t : Vec Ideal S5000x128 .f32) (ix2 p j))
      = fun j => (m ((c : Thread nD τ).loc main_arg0) : S50000x128.Idx → EReal) (ix2 (i 0) j) :=
    funext fun j => nodes_block_apply m c t p j (i 0) h0
  have eb : (fun j => (iblk m c 1 t : Vec Ideal S5000x128 .f32) (ix2 p j))
      = fun j => agg (m ((c : Thread nD τ).loc main_arg1)) (m ((c : Thread nD τ).loc main_arg2)) (ix2 (i 0) j) :=
    funext fun j => agg_block_apply m c t p j (i 0) h0
  have e3 : (fun k => (iblk m c 3 t : Vec Ideal S1x256 .f32) (ix2 0 k))
      = fun k => (m ((c : Thread nD τ).loc main_arg4) : S256.Idx → EReal) (ix1 k) :=
    funext fun k => b1_block_apply m c t k
  have e5 : (fun j => (iblk m c 5 t : Vec Ideal S1x128 .f32) (ix2 0 j))
      = fun j => (m ((c : Thread nD τ).loc main_arg6) : S128.Idx → EReal) (ix1 j) :=
    funext fun j => b2_block_apply m c t j
  rw [ea, eb, e3, e5, w1_block, w2_block, ← h1]
  rfl

end Cert.KernelIdeal.Whole

end
-- ==== Proof.KernelValue.lean ====
/-
  The kernel's result array, as one function of the arguments.

  The region has ten points; point `t` writes back rows `5000 t … 5000 t + 4999` of the result, and what it writes
  at row `p` of its block is the perceptron of row `p` of the blocks it read: the node update of the whole arrays at
  row `5000 t + p`. So every write-back is a block of one function, `result`. The ten blocks cover the 50000 rows
  (row `r` lies in block `r / 5000`), so after the run the array holds `result` everywhere.
-/
import proofs.«154741_j11373073400276_1_alg».proof.Proof.Gen.KernelIdeal.Value
import proofs.«154741_j11373073400276_1_alg».proof.Proof.KernelBlock
import proofs.«154741_j11373073400276_1_alg».proof.Proof.KernelRows
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx Cert.NodeMlp

variable (m : (ℓ : Loc nD τ sig) → Buf (Elt Ideal) ℓ) (ρ : Dev nD → PrngReg)

theorem hz : (![0, 0] : Fin 2 → Nat) = fun _ => 0 := funext fun a => by fin_cases a <;> rfl

/-- What point `t` writes back is block `t` of the result. -/
theorem flushed_eq (c : Dev nD) (t : Fin cfg0.N) :
    (dats m 0 c).flushed 6 t = ((cfg0.win 6).blk t).view.read (Elt Ideal) (result m c) := by
  rw [flushed6]
  unfold out0_6
  rw [View.canon_unit_zero hz]
  simp only [View.ld_unit_zero (S := S5000x128) hz, View.ld_unit_zero (S := S256x256) hz, View.ld_unit_zero (S := S1x256) hz,
    View.ld_unit_zero (S := S256x128) hz, View.ld_unit_zero (S := S1x128) hz]
  funext y
  obtain ⟨p, q, rfl⟩ : ∃ (p : Fin 5000) (q : Fin 128), y = ix2 p q := ⟨y 0, y 1, eq_ix2 y⟩
  obtain ⟨-, -, -, -, -, -, -, -, -, -, -, -, e0, e1⟩ := idx_facts t
  show k0_pay1 (F := Ideal) (iblk m c 0 t) (iblk m c 1 t) (iblk m c 2 t) (iblk m c 3 t) (iblk m c 4 t) (iblk m c 5 t) (ix2 p q)
    = result m c (((cfg0.win 6).blk t).view.emb (ix2 p q))
  refine (Block.pay_apply (iblk m c 0 t) (iblk m c 1 t) (iblk m c 2 t) (iblk m c 3 t) (iblk m c 4 t) (iblk m c 5 t) p q).trans ?_
  exact block_row m c t p q _
    (by show win0_6.index t (0 : Fin 2) * 5000 + 1 * p.val = _; rw [e0]; omega)
    (Fin.ext (by show win0_6.index t (1 : Fin 2) * 128 + 1 * q.val = q.val; rw [e1]; omega))

/-- An index of the result lies in point `t`'s block when each coordinate lies in the block's range on its axis. -/
theorem mem_block (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v13).slice (win0_6.rect t)).set ↔ _
  rw [View.set_slice_whole, Rect.mem_set_unit]
  exact Iff.rfl

/-- Every index of the result lies in the block of the point its row falls in. -/
theorem covered (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, -, -, -, -, -, -, e0, e1⟩ := idx_facts t
  refine ⟨t, flush0_6 t, ?_⟩
  rw [mem_block]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 128 ≤ (i 1).val ∧ (i 1).val < win0_6.index t (1 : Fin 2) * 128 + 128
    rw [e1]; omega

/-- After the run the result array holds `result`. -/
theorem final (c : Dev nD) : (dats m 0 c).arrAt 6 cfg0.N = result m c :=
  (dats m 0 c).arrAt_eq_of_cover 6 (result m c) (fun t _ => flushed_eq m c t) covered

/-- The run, read: the result array at `result` of the arguments, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Whole

end
-- ==== Proof.RefValue.lean ====
/-
  The reference's result is the node update of its arguments.

  The reference joins the node features with the aggregated edge features over all 50000 rows at once, multiplies by
  `W1`, adds the bias repeated down the rows, takes the maximum with zero, multiplies by `W2` and adds the second
  bias. Read at row `r` and column `q` each product is the sum over the contracted index and each repeated bias
  its entry, so the result there is the perceptron of row `r` of the joined arrays: `nodeUpdate`.
-/
import proofs.«154741_j11373073400276_1_alg».proof.Proof.Gen.ReferenceIdeal.Read
import proofs.«154741_j11373073400276_1_alg».proof.Proof.Net

noncomputable section

namespace Cert.ReferenceIdeal.Whole

open Cert.ReferenceIdeal Cert.ReferenceIdeal.Gen Cert.ReferenceIdeal.Read Idealize.ShloMosaic Idealize.ShloMosaic.ValueIdx
open Cert.NodeMlp

/-- The reference's result array, as a function of the arguments, is the node update of the node features and the
    aggregated edge features. -/
theorem result_eq (x0 : (⟨S50000x128, .f32⟩ : BufTy).Contents (Elt Ideal)) (x1 : (⟨S600000x128, .f32⟩ : BufTy).Contents (Elt Ideal))
    (x2 : (⟨S600000x2, .i32⟩ : BufTy).Contents (Elt Ideal)) (x3 : (⟨S256x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal)) :
    val_main_v20 (F := Ideal) x0 x1 x2 x3 x4 x5 x6 = nodeUpdate x0 (val_main_v10 (F := Ideal) x1 x2) x3 x4 x5 x6 := by
  funext i
  obtain ⟨r, q, rfl⟩ : ∃ (r : Fin 50000) (q : Fin 128), i = ix2 r q := ⟨i 0, i 1, eq_ix2 i⟩
  rw [val_main_v20_apply, val_main_v17_apply, val_main_v19_apply, val_main_v18_apply]
  show _ + _ = rowMlp (joinRow (fun j => x0 (ix2 r j)) (fun j => val_main_v10 (F := Ideal) x1 x2 (ix2 r j))) x3
    (fun k => x4 (ix1 k)) x5 (fun j => x6 (ix1 j)) q
  unfold rowMlp
  refine congrArg₂ (· + ·) ?_ ?_
  · refine Finset.sum_congr rfl fun k _ => ?_
    have e1 : lidx_main_v17 (ix2 r q) k = ix2 r k :=
      funext fun a => Fin.ext (by match a with | ⟨0, _⟩ => rfl | ⟨1, _⟩ => rfl)
    have e2 : ridx_main_v17 (ix2 r q) k = ix2 k q :=
      funext fun a => Fin.ext (by match a with | ⟨0, _⟩ => rfl | ⟨1, _⟩ => rfl)
    rw [e1, e2, val_main_v16_apply, val_main_v15_apply, val_main_v12_apply, val_main_v14_apply, val_main_v13_apply,
      val_main_call0_v0_apply, val_main_call0_cst_apply, Ideal.ofBits_def, Ideal.ofBits_zero_f32]
    show max (_ + _) 0 * _ = _
    refine congrArg (fun z => max z 0 * x5 (ix2 k q)) ?_
    refine congrArg₂ (· + ·) ?_ ?_
    · refine Finset.sum_congr rfl fun l _ => ?_
      have e3 : lidx_main_v12 (ix2 r k) l = ix2 r l :=
        funext fun a => Fin.ext (by match a with | ⟨0, _⟩ => rfl | ⟨1, _⟩ => rfl)
      have e4 : ridx_main_v12 (ix2 r k) l = ix2 l k :=
        funext fun a => Fin.ext (by match a with | ⟨0, _⟩ => rfl | ⟨1, _⟩ => rfl)
      rw [e3, e4]
      unfold val_main_v11
      exact congrArg (· * x3 (ix2 l k)) (concat_rows_apply _ x0 (val_main_v10 (F := Ideal) x1 x2) r l)
    · exact congrArg x4 (funext fun a => Fin.ext (by match a with | ⟨0, _⟩ => rfl))
  · exact congrArg x6 (funext fun a => Fin.ext (by match a with | ⟨0, _⟩ => rfl))

end Cert.ReferenceIdeal.Whole

end
-- ==== Proof.lean ====
/- The node update of a message-passing layer: the kernel against its reference, over the extended reals.

   Both programs first aggregate the edge features onto the nodes: the edge features scatter-added by the first
   endpoint column into zeros, plus the same by the second endpoint column. The two programs spell this aggregate
   with the same operations of the same arguments, so it is one term on both sides and is never opened. Then every
   node's row `[x_node | aggregate]` of 256 numbers goes through a two-layer perceptron,
   `max (x · W1 + b1) 0 · W2 + b2`. The reference does this for all 50000 rows at once; the kernel in ten blocks of
   5000 rows, with the operands narrowed to bf16 before each product and the products accumulated into zeros. On the
   extended reals a change of float format is the identity and a product into a zero accumulator is the plain sum
   over the contracted index, and the perceptron of a row depends on that row alone: so each block the kernel writes
   is a block of the one function `NodeMlp.nodeUpdate`, the ten blocks cover the array, and the reference's result
   is the same function (Proof/Net.lean the function; Proof/KernelBlock.lean, Proof/KernelRows.lean and
   Proof/KernelValue.lean the kernel; Proof/RefValue.lean the reference; Proof/LibDot.lean a plain matrix product
   read at an entry). No law used needs finiteness: only commutative-monoid sums, and equal terms.

   The three frames are the generated ones (the reference's is its generated run with the result dropped), and the
   idealization rewrote no operation, so `preserves` is `True`. -/
import proofs.«154741_j11373073400276_1_alg».proof.Defs
import proofs.«154741_j11373073400276_1_alg».proof.Proof.Gen.Kernel
import proofs.«154741_j11373073400276_1_alg».proof.Proof.Gen.Kernel.Skeleton
import proofs.«154741_j11373073400276_1_alg».proof.Proof.Gen.Kernel.Launch
import proofs.«154741_j11373073400276_1_alg».proof.Proof.Gen.Kernel.Points
import proofs.«154741_j11373073400276_1_alg».proof.Proof.Gen.Kernel.Frame
import proofs.«154741_j11373073400276_1_alg».proof.Proof.Gen.KernelIdeal
import proofs.«154741_j11373073400276_1_alg».proof.Proof.Gen.KernelIdeal.Skeleton
import proofs.«154741_j11373073400276_1_alg».proof.Proof.Gen.KernelIdeal.Launch
import proofs.«154741_j11373073400276_1_alg».proof.Proof.Gen.KernelIdeal.Points
import proofs.«154741_j11373073400276_1_alg».proof.Proof.Gen.KernelIdeal.Frame
import proofs.«154741_j11373073400276_1_alg».proof.Proof.Gen.ReferenceIdeal
import proofs.«154741_j11373073400276_1_alg».proof.Proof.Gen.Pre_finite_inputs
import proofs.«154741_j11373073400276_1_alg».proof.Proof.Gen.KernelIdeal.Value
import proofs.«154741_j11373073400276_1_alg».proof.Proof.Gen.ReferenceIdeal.Run
import proofs.«154741_j11373073400276_1_alg».proof.Proof.Gen.ReferenceIdeal.Read
import proofs.«154741_j11373073400276_1_alg».proof.Proof.KernelValue
import proofs.«154741_j11373073400276_1_alg».proof.Proof.RefValue
import Idealize.ShloMosaic.Adequacy
import Idealize.ShloMosaic.Init

noncomputable section

namespace Cert.Proof

open Idealize.ShloMosaic Idealize.SL.Sem

/-- The two programs' aggregates are one term: the same operations of the same arguments. -/
theorem agg_eq (x1 : (⟨Cert.KernelIdeal.S600000x128, .f32⟩ : BufTy).Contents (Elt Ideal))
    (x2 : (⟨Cert.KernelIdeal.S600000x2, .i32⟩ : BufTy).Contents (Elt Ideal)) :
    Cert.KernelIdeal.Whole.agg x1 x2 = Cert.ReferenceIdeal.Read.val_main_v10 (F := Ideal) x1 x2 := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- Both programs, from memories agreeing on the arguments, end with the result array at the node update of the
    node features and the aggregate, and with the edge features and the endpoint table as launched. -/
theorem algebraic : Cert.algebraic_KernelIdeal_ReferenceIdeal := by
  intro m ρ m' ρ' _ hagree
  refine ⟨fun c => Cert.KernelIdeal.Whole.result m c,
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg2), ?_, ?_⟩
  · refine (θ_run Cert.KernelIdeal.defs _ _).mono (fun r h c => ?_) (Cert.KernelIdeal.Whole.run m ρ)
    obtain ⟨h13, h0, h1, h2, h3, h4, h5, h6⟩ := h c
    exact ⟨h13, h1, h2, h0, h1, h2, h3, h4, h5, h6⟩
  · refine (θ_run Cert.ReferenceIdeal.defs _ _).mono (fun r h c => ?_)
      (Cert.ReferenceIdeal.Value.run (F := Ideal) m' ρ')
    obtain ⟨h20, h1, h2, hrest⟩ := h c
    obtain ⟨a0, a1, a2, a3, a4, a5, a6⟩ := hagree c
    refine ⟨?_, h1.trans a1, h2.trans a2, hrest⟩
    rw [h20, Cert.ReferenceIdeal.Read.val_main_v20_eq, Cert.ReferenceIdeal.Whole.result_eq, a0, a1, a2, a3, a4, a5, a6,
      ← agg_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
